-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x300 : Shape := ⟨2, ![200000, 300]⟩
abbrev S32x900 : Shape := ⟨2, ![32, 900]⟩
abbrev S32 : Shape := ⟨1, ![32]⟩
abbrev S_ : Shape := ⟨0, ![]⟩

class Facts : Prop where
  bcast_S_S200000x300 : S_.BroadcastsInDim S200000x300 (![] : Fin 0 → Fin S200000x300.rank)
  reducesTo_S200000x300_S_d0_1 : S200000x300.ReducesTo [0, 1] S_
  h_S_ : 0 < S_.numel
  bcast_S_S32x900 : S_.BroadcastsInDim S32x900 (![] : Fin 0 → Fin S32x900.rank)
  reducesTo_S32x900_S_d0_1 : S32x900.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S200000x300 .f32) (main_arg1 : FVec F S32x900 .f32) (main_arg2 : FVec F S32 .f32) : IVec S_ 1 :=
  let main_v0 : FVec F S200000x300 .f32 := Host.absf main_arg0
  let main_cst : FVec F S_ .f32 := constant S_ .f32 0x7F800000#32
  let main_v1 : FVec F S200000x300 .f32 := broadcastInDim S200000x300 ![] bcast_S_S200000x300 main_cst
  let main_v2 : IVec S200000x300 1 := cmpf .olt main_v0 main_v1
  let main_c : IVec S_ 1 := constantI S_ 1 1#1
  let main_v3 : IVec S_ 1 := (fun x v => Host.reduce IntOp.andi x v reducesTo_S200000x300_S_d0_1 h_S_) main_v2 main_c
  let main_v4 : FVec F S32x900 .f32 := Host.absf main_arg1
  let main_cst_0 : FVec F S_ .f32 := constant S_ .f32 0x7F800000#32
  let main_v5 : FVec F S32x900 .f32 := broadcastInDim S32x900 ![] bcast_S_S32x900 main_cst_0
  let main_v6 : IVec S32x900 1 := cmpf .olt main_v4 main_v5
  let main_c_1 : IVec S_ 1 := constantI S_ 1 1#1
  let main_v7 : IVec S_ 1 := (fun x v => Host.reduce IntOp.andi x v reducesTo_S32x900_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S200000x300 : Shape := ⟨2, ![200000, 300]⟩
abbrev S32x900 : Shape := ⟨2, ![32, 900]⟩
abbrev S32 : Shape := ⟨1, ![32]⟩
abbrev S_ : Shape := ⟨0, ![]⟩
abbrev S200712x300 : Shape := ⟨2, ![200712, 300]⟩
abbrev S32x1 : Shape := ⟨2, ![32, 1]⟩
abbrev S32x200704 : Shape := ⟨2, ![32, 200704]⟩
abbrev S32x2048 : Shape := ⟨2, ![32, 2048]⟩
abbrev S2x2056x300 : Shape := ⟨3, ![2, 2056, 300]⟩
abbrev S2 : Shape := ⟨1, ![2]⟩
abbrev S1 : Shape := ⟨1, ![1]⟩
abbrev S1x2056x300 : Shape := ⟨3, ![1, 2056, 300]⟩
abbrev S2056x300 : Shape := ⟨2, ![2056, 300]⟩
abbrev S2048x300 : Shape := ⟨2, ![2048, 300]⟩
abbrev S2048x900 : Shape := ⟨2, ![2048, 900]⟩
abbrev S32x199998 : Shape := ⟨2, ![32, 199998]⟩

abbrev nBuf : Space → Nat
  | .hbm => 9
  | .vmem => 5
  | .smem => 0
  | _ => 0

abbrev bufTy : (tb : Table) → Fin (tcTables nBuf tb) → BufTy
  | .hbm, ⟨0, _⟩ => ⟨S200000x300, .f32⟩
  | .hbm, ⟨1, _⟩ => ⟨S32x900, .f32⟩
  | .hbm, ⟨2, _⟩ => ⟨S32, .f32⟩
  | .hbm, ⟨3, _⟩ => ⟨S_, .i32⟩
  | .hbm, ⟨4, _⟩ => ⟨S_, .f32⟩
  | .hbm, ⟨5, _⟩ => ⟨S200712x300, .f32⟩
  | .hbm, ⟨6, _⟩ => ⟨S32x1, .f32⟩
  | .hbm, ⟨7, _⟩ => ⟨S32x200704, .f32⟩
  | .hbm, ⟨8, _⟩ => ⟨S32x199998, .f32⟩
  | .local _ .vmem, ⟨0, _⟩ => ⟨S32x900, .f32⟩
  | .local _ .vmem, ⟨1, _⟩ => ⟨S32x1, .f32⟩
  | .local _ .vmem, ⟨2, _⟩ => ⟨S32x2048, .f32⟩
  | .local _ .vmem, ⟨3, _⟩ => ⟨S32x2048, .f32⟩
  | .local _ .vmem, ⟨4, _⟩ => ⟨S2x2056x300, .f32⟩
  | _, _ => ⟨S200000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![98], ![false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def k0_mult1 : BitVec 32 :=
  let c0_i32_19 : BitVec 32 := 0#32
  c0_i32_19
def k0_mult2 (i : grid0.Coords) : BitVec 32 :=
  let arg0 : BitVec 32 := BitVec.ofNat 32 (i 0).val
  let c2048_i32 : BitVec 32 := 2048#32
  let v14 : BitVec 32 := Scalar.muli arg0 c2048_i32
  v14
def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let c0_i32_7 : BitVec 32 := 0#32
  ![v9.toNat, 0, 0]
def k0_off3 (i : grid0.Coords) : Fin 2 → Nat :=
  let arg0 : BitVec 32 := BitVec.ofNat 32 (i 0).val
  let c2048_i32 : BitVec 32 := 2048#32
  let v14 : BitVec 32 := Scalar.muli arg0 c2048_i32
  let v15 : BitVec 32 := v14
  let c0_i32_8 : BitVec 32 := 0#32
  ![v15.toNat, 0]
def k0_cond2 (i : grid0.Coords) : BitVec 1 :=
  let arg0 : BitVec 32 := BitVec.ofNat 32 (i 0).val
  let c1_i32_9 : BitVec 32 := 1#32
  let v21 : BitVec 32 := Scalar.addi arg0 c1_i32_9
  let c98_i32 : BitVec 32 := 98#32
  let v22 : BitVec 1 := Scalar.cmpi .slt v21 c98_i32
  let v23 : BitVec 32 := Scalar.extui v22
  let c0_i32_10 : BitVec 32 := 0#32
  let v24 : BitVec 1 := Scalar.cmpi .ne v23 c0_i32_10
  v24

def k0_mult3 (i : grid0.Coords) : BitVec 32 :=
  let arg0 : BitVec 32 := BitVec.ofNat 32 (i 0).val
  let c1_i32_19 : BitVec 32 := 1#32
  let v43 : BitVec 32 := Scalar.addi arg0 c1_i32_19
  let c2048_i32_20 : BitVec 32 := 2048#32
  let v44 : BitVec 32 := Scalar.muli v43 c2048_i32_20
  v44
def k0_off4 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off5 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_21 : BitVec 32 := 0#32
  let c0_i32_22 : BitVec 32 := 0#32
  ![v10.toNat, 0, 0]
def k0_off6 (i : grid0.Coords) : Fin 2 → Nat :=
  let arg0 : BitVec 32 := BitVec.ofNat 32 (i 0).val
  let c1_i32_19 : BitVec 32 := 1#32
  let v43 : BitVec 32 := Scalar.addi arg0 c1_i32_19
  let c2048_i32_20 : BitVec 32 := 2048#32
  let v44 : BitVec 32 := Scalar.muli v43 c2048_i32_20
  let v45 : BitVec 32 := v44
  let c0_i32_23 : BitVec 32 := 0#32
  ![v45.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : Index := Scalar.indexCast v9
  let c0 : Index := 0#32
  let c0_11 : Index := 0#32
  ![v25.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x900 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S200000x300_S200712x300_07120_000 : S200000x300.Pads (![0, 0] : Fin 2 → Nat) ![712, 0] ![0, 0] S200712x300
  h_S_ : 0 < S_.numel
  shapeCasts_S32_S32x1 : S32.ShapeCasts S32x1
  inb_S2_S1_0 : ∀ a, (![0] : Fin 1 → Nat) a + S1.size a ≤ S2.size a
  squeezes_S1_S_ : S1.Squeezes S_
  inb_S2x2056x300_S1x2056x300_0_0_0 : ∀ a, (![0, 0, 0] : Fin 3 → Nat) a + S1x2056x300.size a ≤ S2x2056x300.size a
  squeezes_S1x2056x300_S2056x300 : S1x2056x300.Squeezes S2056x300
  inb_S200712x300_S2056x300_0_0 : ∀ a, (![0, 0] : Fin 2 → Nat) a + S2056x300.size a ≤ S200712x300.size a
  h_S1x2056x300 : 0 < S1x2056x300.numel
  shapeCasts_S1x2056x300_S2056x300 : S1x2056x300.ShapeCasts S2056x300
  bitsLt_bf16_f32 : FTy.bits .bf16 < FTy.bits .f32
  slices_S2056x300_o0_0_S2048x300 : S2056x300.Slices ![0, 0] S2048x300
  slices_S2056x300_o1_0_S2048x300 : S2056x300.Slices ![1, 0] S2048x300
  slices_S2056x300_o2_0_S2048x300 : S2056x300.Slices ![2, 0] S2048x300
  concatenates_S2048x300_S2048x300_S2048x300_S2048x900_d1 : Shape.Concatenates [S2048x300, S2048x300, S2048x300] S2048x900 1
  inb_S32x900_S32x900_0_0 : ∀ a, (![0, 0] : Fin 2 → Nat) a + S32x900.size a ≤ S32x900.size a
  h_S32x900 : 0 < S32x900.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x2048 : S32x1.Broadcasts S32x2048
  inb_S32x2048_S32x2048_0_0 : ∀ a, (![0, 0] : Fin 2 → Nat) a + S32x2048.size a ≤ S32x2048.size a
  h_S32x2048 : 0 < S32x2048.numel
  slices_S32x200704_S32x199998_0_0 : S32x200704.Slices ![0, 0] S32x199998
  dot_S32x900_S2048x900_S32x2048_1_1_0_0_n_n_wf : DotDims.WF S32x900 S2048x900 S32x2048 [1] [1] [0] [0] [] []
  hcc0_scratch1 : 4 + S2.numel ≤ 6
  hrank0 : 0 < grid0.rank
  k0_mult1_dvd : ∀ i : grid0.Coords, ∀ (k0_h1 : k0_cond1 i = 1#1), 2048 ∣ k0_mult1.toNat
  k0_mult2_dvd : ∀ i : grid0.Coords, 2048 ∣ (k0_mult2 i).toNat
  k0_off1_inb : ∀ i : grid0.Coords, ∀ a, (k0_off1 i) a + S1.size a ≤ S2.size a
  k0_off2_inb : ∀ i : grid0.Coords, ∀ a, (k0_off2 i) a + S1x2056x300.size a ≤ S2x2056x300.size a
  k0_off3_inb : ∀ i : grid0.Coords, ∀ a, (k0_off3 i) a + S2056x300.size a ≤ S200712x300.size a
  k0_mult3_dvd : ∀ i : grid0.Coords, ∀ (k0_h2 : k0_cond2 i = 1#1), 2048 ∣ (k0_mult3 i).toNat
  k0_off4_inb : ∀ i : grid0.Coords, ∀ (k0_h2 : k0_cond2 i = 1#1), ∀ a, (k0_off4 i) a + S1.size a ≤ S2.size a
  k0_off5_inb : ∀ i : grid0.Coords, ∀ (k0_h2 : k0_cond2 i = 1#1), ∀ a, (k0_off5 i) a + S1x2056x300.size a ≤ S2x2056x300.size a
  k0_off6_inb : ∀ i : grid0.Coords, ∀ (k0_h2 : k0_cond2 i = 1#1), ∀ a, (k0_off6 i) a + S2056x300.size a ≤ S200712x300.size a
  k0_off7_inb : ∀ i : grid0.Coords, ∀ a, (k0_off7 i) a + S1x2056x300.size a ≤ S2x2056x300.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x900.size a ≤ S32x900.size a
  hwx0_0 : ∀ i : grid0.Coords, EltTy.bits .f32 = 32 ∨ (Rect.block (s := S32x900) S32x900.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S32x2048.size a ≤ S32x200704.size a
  hwx0_2 : ∀ i : grid0.Coords, EltTy.bits .f32 = 32 ∨ (Rect.block (s := S32x200704) S32x2048.size (cc0_transform_3 i) (hinb0_2 i)).WholeWords (EltTy.packing .f32)

variable [Facts₀]

abbrev cc0_scratch1 : DmaSems sig S2 := SemArray.consecutive 4 S2 hcc0_scratch1
def dot_S32x900_S2048x900_S32x2048_1_1_0_0_n_n : DotDims S32x900 S2048x900 S32x2048 where
  lhsContracting := [1]
  rhsContracting := [1]
  lhsNonContracting := [0]
  rhsNonContracting := [0]
  lhsBatch := []
  rhsBatch := []
  wf := dot_S32x900_S2048x900_S32x2048_1_1_0_0_n_n_wf

abbrev win0_0 : Pipeline.Window sig grid0 :=
  Pipeline.Window.ofSpec (Memref.whole main_arg1) S32x900.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x2048.size cc0_transform_3 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x300 : Shape := ⟨2, ![200000, 300]⟩
abbrev S32x900 : Shape := ⟨2, ![32, 900]⟩
abbrev S32 : Shape := ⟨1, ![32]⟩
abbrev S199998 : Shape := ⟨1, ![199998]⟩
abbrev S199998x1 : Shape := ⟨2, ![199998, 1]⟩
abbrev S3 : Shape := ⟨1, ![3]⟩
abbrev S1x3 : Shape := ⟨2, ![1, 3]⟩
abbrev S199998x3 : Shape := ⟨2, ![199998, 3]⟩
abbrev S_ : Shape := ⟨0, ![]⟩
abbrev S199998x3x1 : Shape := ⟨3, ![199998, 3, 1]⟩
abbrev S199998x3x300 : Shape := ⟨3, ![199998, 3, 300]⟩
abbrev S199998x900 : Shape := ⟨2, ![199998, 900]⟩
abbrev S900x32 : Shape := ⟨2, ![900, 32]⟩
abbrev S199998x32 : Shape := ⟨2, ![199998, 32]⟩
abbrev S1x32 : Shape := ⟨2, ![1, 32]⟩
abbrev S32x199998 : Shape := ⟨2, ![32, 199998]⟩

abbrev nBuf : Space → Nat
  | .hbm => 29
  | .vmem => 0
  | .smem => 0
  | _ => 0

abbrev bufTy : (tb : Table) → Fin (tcTables nBuf tb) → BufTy
  | .hbm, ⟨0, _⟩ => ⟨S200000x300, .f32⟩
  | .hbm, ⟨1, _⟩ => ⟨S32x900, .f32⟩
  | .hbm, ⟨2, _⟩ => ⟨S32, .f32⟩
  | .hbm, ⟨3, _⟩ => ⟨S199998, .i32⟩
  | .hbm, ⟨4, _⟩ => ⟨S199998x1, .i32⟩
  | .hbm, ⟨5, _⟩ => ⟨S3, .i32⟩
  | .hbm, ⟨6, _⟩ => ⟨S1x3, .i32⟩
  | .hbm, ⟨7, _⟩ => ⟨S199998x3, .i32⟩
  | .hbm, ⟨8, _⟩ => ⟨S199998x3, .i32⟩
  | .hbm, ⟨9, _⟩ => ⟨S199998x3, .i32⟩
  | .hbm, ⟨10, _⟩ => ⟨S_, .i32⟩
  | .hbm, ⟨11, _⟩ => ⟨S199998x3, .i32⟩
  | .hbm, ⟨12, _⟩ => ⟨S199998x3, .i1⟩
  | .hbm, ⟨13, _⟩ => ⟨S_, .i32⟩
  | .hbm, ⟨14, _⟩ => ⟨S199998x3, .i32⟩
  | .hbm, ⟨15, _⟩ => ⟨S199998x3, .i32⟩
  | .hbm, ⟨16, _⟩ => ⟨S199998x3, .i32⟩
  | .hbm, ⟨17, _⟩ => ⟨S199998x3x1, .i32⟩
  | .hbm, ⟨18, _⟩ => ⟨S199998x3x300, .f32⟩
  | .hbm, ⟨19, _⟩ => ⟨S199998x900, .f32⟩
  | .hbm, ⟨20, _⟩ => ⟨S900x32, .f32⟩
  | .hbm, ⟨21, _⟩ => ⟨S199998x32, .f32⟩
  | .hbm, ⟨22, _⟩ => ⟨S1x32, .f32⟩
  | .hbm, ⟨23, _⟩ => ⟨S199998x32, .f32⟩
  | .hbm, ⟨24, _⟩ => ⟨S199998x32, .f32⟩
  | .hbm, ⟨25, _⟩ => ⟨S_, .f32⟩
  | .hbm, ⟨26, _⟩ => ⟨S199998x32, .f32⟩
  | .hbm, ⟨27, _⟩ => ⟨S199998x32, .f32⟩
  | .hbm, ⟨28, _⟩ => ⟨S32x199998, .f32⟩
  | _, _ => ⟨S200000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  bcast_S199998_S199998x1_0 : S199998.BroadcastsInDim S199998x1 (![0] : Fin 1 → Fin S199998x1.rank)
  bcast_S3_S1x3_1 : S3.BroadcastsInDim S1x3 (![1] : Fin 1 → Fin S1x3.rank)
  bcast_S199998x1_S199998x3_0_1 : S199998x1.BroadcastsInDim S199998x3 (![0, 1] : Fin 2 → Fin S199998x3.rank)
  bcast_S1x3_S199998x3_0_1 : S1x3.BroadcastsInDim S199998x3 (![0, 1] : Fin 2 → Fin S199998x3.rank)
  bcast_S_S199998x3 : S_.BroadcastsInDim S199998x3 (![] : Fin 0 → Fin S199998x3.rank)
  bcast_S199998x3_S199998x3x1_0_1 : S199998x3.BroadcastsInDim S199998x3x1 (![0, 1] : Fin 2 → Fin S199998x3x1.rank)
  shapeCasts_S199998x3x300_S199998x900 : S199998x3x300.ShapeCasts S199998x900
  transposes_S32x900_S900x32_1_0 : S32x900.Transposes [1, 0] S900x32
  bcast_S32_S1x32_1 : S32.BroadcastsInDim S1x32 (![1] : Fin 1 → Fin S1x32.rank)
  bcast_S1x32_S199998x32_0_1 : S1x32.BroadcastsInDim S199998x32 (![0, 1] : Fin 2 → Fin S199998x32.rank)
  bcast_S_S199998x32 : S_.BroadcastsInDim S199998x32 (![] : Fin 0 → Fin S199998x32.rank)
  transposes_S199998x32_S32x199998_1_0 : S199998x32.Transposes [1, 0] S32x199998
  gather_S200000x300_S199998x3x1_S199998x3x300_2_0_n_n_0_2_1300_wf : GatherDims.WF S200000x300 S199998x3x1 S199998x3x300 [2] [0] [] [0] [] 2 ![1, 300]
  dot_S199998x900_S900x32_S199998x32_1_0_0_1_n_n_wf : DotDims.WF S199998x900 S900x32 S199998x32 [1] [0] [0] [1] [] []

variable [Facts₀]

def gather_S200000x300_S199998x3x1_S199998x3x300_2_0_n_n_0_2_1300 : GatherDims S200000x300 S199998x3x1 S199998x3x300 where
  offsetDims := [2]
  collapsedSliceDims := [0]
  operandBatchingDims := []
  startIndicesBatchingDims := []
  startIndexMap := [0]
  indexVectorDim := 2
  sliceSizes := ![1, 300]
  wf := gather_S200000x300_S199998x3x1_S199998x3x300_2_0_n_n_0_2_1300_wf
def dot_S199998x900_S900x32_S199998x32_1_0_0_1_n_n : DotDims S199998x900 S900x32 S199998x32 where
  lhsContracting := [1]
  rhsContracting := [0]
  lhsNonContracting := [0]
  rhsNonContracting := [1]
  lhsBatch := []
  rhsBatch := []
  wf := dot_S199998x900_S900x32_S199998x32_1_0_0_1_n_n_wf

class Facts : Prop extends Facts₀ where

variable [Facts]
-- ==== Proof.Spec.lean ====
/-
  A sliding-window linear layer with a rectifier, as one function of its three arrays.

  The sequence is a matrix of 300-entry rows. Output column `c` looks at the three consecutive rows `c`, `c + 1`,
  `c + 2`, laid end to end as one vector of 900 entries: entry `k` of that vector is column `k % 300` of row
  `c + k / 300`. Filter `f` contracts its 900 weights against that vector, adds its bias, and the result is rectified
  (`max · 0`). This file states that value over any number of rows (`convRelu`), the two arrays a program's result
  is compared with (`convPadded`: over the sequence extended by extra rows; `convOut`: over the sequence itself), and the
  one fact that joins them: a window that ends inside the sequence does not see the extra rows.
-/
import Idealize.ShloMosaic.PureOps.Ideal
import Idealize.ShloMosaic.Lib.ValueIdx

noncomputable section

open scoped BigOperators

namespace Cert.Conv

open Idealize.ShloMosaic Idealize.ShloMosaic.ValueIdx

/-- Entry `k` of the window that starts at row `c`: column `k % 300` of row `c + k / 300`. -/
def winEntry {R : Nat} (x : (⟨2, ![R, 300]⟩ : Shape).Idx → EReal) (c : Nat) (hc : c + 2 < R) (k : Fin 900) : EReal :=
  x (ix2 ⟨c + k.val / 300, by have := k.isLt; omega⟩ ⟨k.val % 300, Nat.mod_lt _ (by decide)⟩)

/-- Filter `f` at output column `c`: its weights against the window, plus its bias, rectified. -/
def convRelu {R : Nat} (x : (⟨2, ![R, 300]⟩ : Shape).Idx → EReal) (W : (⟨2, ![32, 900]⟩ : Shape).Idx → EReal)
    (b : (⟨1, ![32]⟩ : Shape).Idx → EReal) (f : Fin 32) (c : Nat) (hc : c + 2 < R) : EReal :=
  max ((∑ k : Fin 900, W (ix2 f k) * winEntry x c hc k) + b (ix1 f)) 0

/-- The window entry only depends on the rows `c`, `c + 1`, `c + 2`: two sequences that agree there give the same entry. -/
theorem winEntry_congr {R R' : Nat} (x : (⟨2, ![R, 300]⟩ : Shape).Idx → EReal) (x' : (⟨2, ![R', 300]⟩ : Shape).Idx → EReal)
    (c : Nat) (hc : c + 2 < R) (hc' : c + 2 < R')
    (h : ∀ (r : Nat) (hr : r < R) (hr' : r < R') (e : Fin 300), r ≤ c + 2 → x (ix2 ⟨r, hr⟩ e) = x' (ix2 ⟨r, hr'⟩ e))
    (k : Fin 900) : winEntry x c hc k = winEntry x' c hc' k := by
  unfold winEntry
  exact h _ _ _ _ (by have := k.isLt; omega)

/-- So does the rectified contraction. -/
theorem convRelu_congr {R R' : Nat} (x : (⟨2, ![R, 300]⟩ : Shape).Idx → EReal) (x' : (⟨2, ![R', 300]⟩ : Shape).Idx → EReal)
    (W : (⟨2, ![32, 900]⟩ : Shape).Idx → EReal) (b : (⟨1, ![32]⟩ : Shape).Idx → EReal) (f : Fin 32)
    (c : Nat) (hc : c + 2 < R) (hc' : c + 2 < R')
    (h : ∀ (r : Nat) (hr : r < R) (hr' : r < R') (e : Fin 300), r ≤ c + 2 → x (ix2 ⟨r, hr⟩ e) = x' (ix2 ⟨r, hr'⟩ e)) :
    convRelu x W b f c hc = convRelu x' W b f c hc' := by
  unfold convRelu
  rw [Finset.sum_congr rfl fun k _ => by rw [winEntry_congr x x' c hc hc' h k]]

/-- Every column of the widened result, over the sequence extended to 200712 rows: 200704 columns, each window inside the
    extended sequence. -/
def convPadded (xp : (⟨2, ![200712, 300]⟩ : Shape).Idx → EReal) (W : (⟨2, ![32, 900]⟩ : Shape).Idx → EReal)
    (b : (⟨1, ![32]⟩ : Shape).Idx → EReal) : (⟨2, ![32, 200704]⟩ : Shape).Idx → EReal :=
  fun j => convRelu xp W b (j 0) (j 1).val (by have := idx2_lt1 j; omega)

/-- The result proper, over the sequence of 200000 rows: one column per window that fits, 199998 of them. -/
def convOut (x : (⟨2, ![200000, 300]⟩ : Shape).Idx → EReal) (W : (⟨2, ![32, 900]⟩ : Shape).Idx → EReal)
    (b : (⟨1, ![32]⟩ : Shape).Idx → EReal) : (⟨2, ![32, 199998]⟩ : Shape).Idx → EReal :=
  fun j => convRelu x W b (j 0) (j 1).val (by have := idx2_lt1 j; omega)

/-- On the first 199998 columns the widened result over an extension of the sequence is the result proper: those windows end
    at row 199999 at the latest. -/
theorem convPadded_eq_convOut (xp : (⟨2, ![200712, 300]⟩ : Shape).Idx → EReal) (x : (⟨2, ![200000, 300]⟩ : Shape).Idx → EReal)
    (W : (⟨2, ![32, 900]⟩ : Shape).Idx → EReal) (b : (⟨1, ![32]⟩ : Shape).Idx → EReal)
    (hx : ∀ (r : Fin 200000) (e : Fin 300), xp (ix2 ⟨r.val, by have := r.isLt; omega⟩ e) = x (ix2 r e))
    (f : Fin 32) (c : Fin 199998) :
    convPadded xp W b (ix2 f ⟨c.val, by have := c.isLt; omega⟩) = convOut x W b (ix2 f c) := by
  unfold convPadded convOut
  exact convRelu_congr xp x W b f c.val _ _ fun r hr hr' e _ => hx ⟨r, hr'⟩ e

end Cert.Conv

end
-- ==== Proof.Stored.lean ====
/-
  What grid point `t` stores into its block of the widened result.

  The kernel keeps the extended sequence in slow memory and streams it, 2056 rows at a time, through two slots of a
  scratch buffer: at point `t` the slot `t % 2` holds rows `2048 t … 2048 t + 2055` of the extended sequence. This file
  shows that the load of that slot reads exactly those rows (`slab_read`: the slot's own rows of the scratch, read back
  from the one whole-slot piece the copy left there, are the source rows the copy took), and so that the block each of
  the three control cases of the body stores is one and the same function of the point: the body's arithmetic applied to
  that slab, the weights' block and the bias' block (`stored`, `outsAt_eq`).
-/
import proofs.«151488_j42159398977944_1_alg».proof.Proof.Gen.KernelIdeal.Frame
import Idealize.ShloMosaic.Lib.Pipeline.Value
import Idealize.ShloMosaic.Lib.ValueIdx

set_option maxRecDepth 16384

noncomputable section

namespace Cert.Conv.Stored

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

theorem zeros2 : (![0, 0] : Fin 2 → Nat) = fun _ => 0 := funext fun a => by fin_cases a <;> rfl

/-! ## Where a slot and a source block place an index -/

omit [FloatOps F] in
/-- Row `r`, column `e` of slot `s` is element `(s, r, e)` of the scratch buffer. -/
theorem slot_emb (s : Fin 2) (y : S2056x300.Idx) (a : Fin 3) :
    ((rslot0_0 s).view.emb y a).val = (![s.val, (y 0).val, (y 1).val] : Fin 3 → Nat) a := by
  show (![s.val, 0, 0] : Fin 3 → Nat) a
      + 1 * ((Shape.reshapeEquiv (Shape.Squeezes.numel_eq squeezes_S1x2056x300_S2056x300) y) a).val = _
  rw [Shape.reshapeEquiv_cons_one (n := 2) (d := ![2056, 300])]
  refine Fin.cases ?_ (fun i => ?_) a
  · show s.val + 1 * 0 = s.val
    omega
  · refine Fin.cases ?_ (fun i => ?_) i
    · show 0 + 1 * (y 0).val = (y 0).val
      omega
    · have hi : i = 0 := Subsingleton.elim _ _
      subst hi
      show 0 + 1 * (y 1).val = (y 1).val
      omega

omit [FloatOps F] in
/-- Row `r`, column `e` of source block `b` is row `2048 b + r`, column `e` of the extended sequence. -/
theorem src_emb (b : Fin 98) (y : S2056x300.Idx) (a : Fin 2) :
    ((srcB0_0 b).view.emb y a).val = (![2048 * b.val + (y 0).val, (y 1).val] : Fin 2 → Nat) a := by
  show (![2048 * b.val, 0] : Fin 2 → Nat) a + 1 * (y a).val = _
  refine Fin.cases ?_ (fun i => ?_) a
  · show 2048 * b.val + 1 * (y 0).val = 2048 * b.val + (y 0).val
    omega
  · have hi : i = 0 := Subsingleton.elim _ _
    subst hi
    show 0 + 1 * (y 1).val = (y 1).val
    omega

/-! ## The slab a point loads -/

/-- Behind the load's leading unit axis: row and column. -/
abbrev behind (y : S1x2056x300.Idx) : S2056x300.Idx := fun i => (y i.succ).cast rfl

/-- A load of slot `s`'s rows through the whole scratch, of contents in which the copy's whole-slot piece `x` is listed
    over anything, reads `x` behind the unit axis. -/
theorem slab_read (s : Fin 2) (x : S2056x300.Idx → Elt F .f32) (off : Fin 3 → Nat) (inb)
    (hoff : off = ![s.val, 0, 0]) (y : S1x2056x300.Idx) :
    scM0_0.view.readAt (Elt F) (Rect.unit (s := S2x2056x300) off S1x2056x300.size inb).toLoadRect
        ((rslot0_0 s).view.writes (Elt F) (rslot0_0 s).view.junk [⟨Rect.whole S2056x300, x⟩]) y
      = x (behind y) := by
  subst hoff
  simp only [scM0_0, Memref.view_whole, View.readAt, View.read_whole]
  have e : (Rect.unit (s := S2x2056x300) ![s.val, 0, 0] S1x2056x300.size inb).toLoadRect.idx y
      = (rslot0_0 s).view.emb (behind y) := by
    funext a
    apply Fin.ext
    rw [slot_emb s (behind y) a]
    show (![s.val, 0, 0] : Fin 3 → Nat) a + 1 * (y a).val = _
    have h0 : (y 0).val < 1 := (y 0).isLt
    refine Fin.cases ?_ (fun i => ?_) a
    · show s.val + 1 * (y 0).val = s.val
      omega
    · refine Fin.cases ?_ (fun i => ?_) i
      · show 0 + 1 * (y 1).val = (y 1).val
        omega
      · have hi : i = 0 := Subsingleton.elim _ _
        subst hi
        show 0 + 1 * (y 2).val = (y 2).val
        omega
  rw [e]
  exact congrFun (View.read_writes_whole (rslot0_0 s).view ((rslot0_0 s).view.junk (Val := Elt F)) x) _

/-! ## The stored block, case by case -/

section Out
variable (c : Dev nD) (t : Fin cfg0.N) (a1 : Memref sig .tc .vmem S32x900 .f32) (h1 : a1.IsWhole)
  (a2 : Memref sig .tc .vmem S32x1 .f32) (h2 : a2.IsWhole) (a4 : Memref sig .tc .vmem S32x2048 .f32) (h4 : a4.IsWhole)
  (x0 : Vec F S32x900 .f32) (x1 : Vec F S32x1 .f32) (W : HbBuf0 (F := F) c hbM0_0)

/-- The slab point `t` loads: source block `t` of the extended sequence `W`, behind a unit axis. -/
abbrev slab : Vec F S1x2056x300 .f32 :=
  fun y => ReadAs.same.apply ((srcB0_0 (Ring.bk 98 t.val)).view.read (Elt F) W) (behind y)

/-- The block point `t` stores, whatever the case: the body's arithmetic of the slab, the weights' block `x0` and the
    bias' block `x1`. -/
abbrev stored : Vec F S32x2048 .f32 :=
  k0_pay1 (k0_pay2 (slab c t W)) (k0_pay3 x0) (constant S32x2048 .f32 0x00000000#32) x1

/-- At the first point (it starts its own copy, waits for it, and starts the next). -/
theorem out_eq_A (hc0 : cond0_0 (grid0.coords t)) (hc1 : cond0_1 (grid0.coords t)) :
    out0_A_2 c t a1 h1 a2 h2 a4 h4 hc0 hc1 x0 x1 W = stored c t x0 x1 W := by
  unfold out0_A_2
  rw [View.read_writes_eq_canon _ _ _ (cover0_A_2 c t a1 h1 a2 h2 a4 h4 hc0 hc1 x0 x1 W)]
  unfold kernelRun0_A
  dsimp only
  sl_unfold_words
  rw [View.canon_unit_zero zeros2]
  simp only [View.readAt_eq_ld, h1.read_unread, h2.read_unread, View.ld_unit_zero (S := S32x900) zeros2,
    View.ld_unit_zero (S := S32x1) zeros2]
  exact congrArg (fun v => k0_pay1 (k0_pay2 v) (k0_pay3 x0) (constant S32x2048 .f32 0x00000000#32) x1)
    (funext fun y => slab_read _ _ _ _ (coff0_0_10 t) y)

/-- At a middle point (it waits for the copy the point before started, and starts the next). -/
theorem out_eq_B (hc0 : ¬cond0_0 (grid0.coords t)) (hc1 : cond0_1 (grid0.coords t)) :
    out0_B_2 c t a1 h1 a2 h2 a4 h4 hc0 hc1 x0 x1 W = stored c t x0 x1 W := by
  unfold out0_B_2
  rw [View.read_writes_eq_canon _ _ _ (cover0_B_2 c t a1 h1 a2 h2 a4 h4 hc0 hc1 x0 x1 W)]
  unfold kernelRun0_B
  dsimp only
  sl_unfold_words
  rw [View.canon_unit_zero zeros2]
  simp only [View.readAt_eq_ld, h1.read_unread, h2.read_unread, View.ld_unit_zero (S := S32x900) zeros2,
    View.ld_unit_zero (S := S32x1) zeros2]
  exact congrArg (fun v => k0_pay1 (k0_pay2 v) (k0_pay3 x0) (constant S32x2048 .f32 0x00000000#32) x1)
    (funext fun y => slab_read _ _ _ _ (coff0_0_10 t) y)

/-- At the last point (it waits, and starts nothing). -/
theorem out_eq_C (hc0 : ¬cond0_0 (grid0.coords t)) (hc1 : ¬cond0_1 (grid0.coords t)) :
    out0_C_2 c t a1 h1 a2 h2 a4 h4 hc0 hc1 x0 x1 W = stored c t x0 x1 W := by
  unfold out0_C_2
  rw [View.read_writes_eq_canon _ _ _ (cover0_C_2 c t a1 h1 a2 h2 a4 h4 hc0 hc1 x0 x1 W)]
  unfold kernelRun0_C
  dsimp only
  sl_unfold_words
  rw [View.canon_unit_zero zeros2]
  simp only [View.readAt_eq_ld, h1.read_unread, h2.read_unread, View.ld_unit_zero (S := S32x900) zeros2,
    View.ld_unit_zero (S := S32x1) zeros2]
  exact congrArg (fun v => k0_pay1 (k0_pay2 v) (k0_pay3 x0) (constant S32x2048 .f32 0x00000000#32) x1)
    (funext fun y => slab_read _ _ _ _ (coff0_0_10 t) y)

/-- So what the output's staging buffer holds after point `t` is that block, at every point. -/
theorem outsAt_eq : outsAt0 m c t.val t.isLt = stored c t (iblk m c 0 t) (iblk m c 1 t) (V m c main_v0) := by
  have hN : t.val < 98 := lt_of_lt_of_eq t.isLt (show cfg0.N = 98 from N_0)
  by_cases h0 : t.val % 98 = 0
  · by_cases h1 : t.val < 97
    · rw [outsAt0_A m c t h0 h1]
      exact out_eq_A c t (ms0_0 t) (hs0_0 t) (ms0_1 t) (hs0_1 t) (ms0_2 t) (hs0_2 t) (iblk m c 0 t) (iblk m c 1 t)
        (V m c main_v0) ((hcond0_0 t).mpr h0) ((hcond0_1 t).mpr h1)
    · exfalso; omega
  · by_cases h1 : t.val < 97
    · rw [outsAt0_B m c t h0 h1]
      exact out_eq_B c t (ms0_0 t) (hs0_0 t) (ms0_1 t) (hs0_1 t) (ms0_2 t) (hs0_2 t) (iblk m c 0 t) (iblk m c 1 t)
        (V m c main_v0) (fun h => h0 ((hcond0_0 t).mp h)) ((hcond0_1 t).mpr h1)
    · rw [outsAt0_C m c t h0 h1]
      exact out_eq_C c t (ms0_0 t) (hs0_0 t) (ms0_1 t) (hs0_1 t) (ms0_2 t) (hs0_2 t) (iblk m c 0 t) (iblk m c 1 t)
        (V m c main_v0) (fun h => h0 ((hcond0_0 t).mp h)) (fun h => h1 ((hcond0_1 t).mp h))

/-- Row `r`, column `e` of the slab is row `2048 t + r`, column `e` of the extended sequence. -/
theorem slab_apply (u : Fin 1) (r : Fin 2056) (e : Fin 300) :
    slab c t W (ix3 u r e)
      = (W : S200712x300.Idx → Elt F .f32) (ix2 ⟨2048 * t.val + r.val, by
          have hN : t.val < 98 := lt_of_lt_of_eq t.isLt (show cfg0.N = 98 from N_0)
          have := r.isLt; omega⟩ e) := by
  have hN : t.val < 98 := lt_of_lt_of_eq t.isLt (show cfg0.N = 98 from N_0)
  show (W : S200712x300.Idx → Elt F .f32) ((srcB0_0 (Ring.bk 98 t.val)).view.emb (behind (ix3 u r e))) = _
  have hidx : ((srcB0_0 (Ring.bk 98 t.val)).view.emb (behind (ix3 u r e)) : S200712x300.Idx)
      = ix2 ⟨2048 * t.val + r.val, by have := r.isLt; omega⟩ e := by
    funext (a : Fin 2)
    apply Fin.ext
    rw [src_emb (Ring.bk 98 t.val) (behind (ix3 u r e)) a, Ring.bk_val hN]
    match a with
    | ⟨0, _⟩ => rfl
    | ⟨1, _⟩ => rfl
  exact congrArg (W : S200712x300.Idx → Elt F .f32) hidx

end Out

end Cert.Conv.Stored

end
-- ==== Proof.Payload.lean ====
/-
  One entry of the block a grid step stores, read off the three arrays the step loads.

  A step holds a slab of 2056 consecutive rows of the (extended) sequence, the 32 × 900 weights and the bias as a
  32 × 1 column. It joins three copies of the slab, shifted by 0, 1 and 2 rows, side by side: row r of the joined
  matrix is the slab's rows r, r + 1, r + 2 laid end to end, so its entry k is column k % 300 of slab row r + k / 300.
  Filter f's 900 weights are contracted against that row, the filter's bias is added, and the result is rectified.
  At the ideal values the format changes are the identity and the contraction is the plain sum over its 900 terms.
-/
import proofs.«151488_j42159398977944_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Conv.Payload

open Cert.KernelIdeal Cert.KernelIdeal.Gen Idealize.ShloMosaic Idealize.ShloMosaic.ValueIdx

/-! ## The joined matrix at an entry -/

/-- Off the joining axis a piece's index keeps the row; on it there is nothing to show. -/
theorem row_kept (r : Fin 2048) (k : Fin 900) (e : Fin 300) (b : Fin S2048x300.rank)
    (hb : b.cast (rfl : S2048x300.rank = S2048x900.rank) ≠ (1 : Fin S2048x900.rank)) :
    ((ix2 r e : S2048x300.Idx) b).val = ((ix2 r k : S2048x900.Idx) (b.cast rfl)).val := by
  match b with
  | ⟨0, _⟩ => rfl
  | ⟨1, _⟩ => exact absurd rfl hb

/-- Entry (r, k) of the three shifted slabs joined side by side: column k % 300 of slab row r + k / 300. -/
theorem pay2_apply (v26 : Vec Ideal S1x2056x300 .f32) (r : Fin 2048) (k : Fin 900) :
    k0_pay2 (F := Ideal) v26 (ix2 r k)
      = v26 (ix3 (0 : Fin 1) ⟨r.val + k.val / 300, by have := r.isLt; have := k.isLt; omega⟩
          ⟨k.val % 300, Nat.mod_lt _ (by decide)⟩) := by
  have hr := r.isLt
  have hk := k.isLt
  unfold k0_pay2
  rcases (by omega : k.val / 300 = 0 ∨ k.val / 300 = 1 ∨ k.val / 300 = 2) with h | h | h
  · refine (concatenate_apply_piece (1 : Fin S2048x900.rank) _ _ (ix2 r k) 0 ?lt0 S2048x300 ?x0 ?piece0 rfl 0 ?before0
        (ix2 r ⟨k.val % 300, Nat.mod_lt _ (by decide)⟩) (row_kept r k _) ?on0).trans ?rest0
    case piece0 => rfl
    case lt0 => show 0 < 3; decide
    case before0 => rfl
    case on0 => show 0 + k.val % 300 = k.val; omega
    case rest0 =>
      exact (slice2_axis0_apply 0 _ slices_S2056x300_o0_0_S2048x300 r ⟨k.val % 300, Nat.mod_lt _ (by decide)⟩
          ⟨r.val + k.val / 300, by omega⟩ (by show r.val + k.val / 300 = 0 + r.val; omega)).trans
        (shapeCast_1ab_ab_apply v26 shapeCasts_S1x2056x300_S2056x300 ⟨r.val + k.val / 300, by omega⟩
          ⟨k.val % 300, Nat.mod_lt _ (by decide)⟩)
  · refine (concatenate_apply_piece (1 : Fin S2048x900.rank) _ _ (ix2 r k) 1 ?lt1 S2048x300 ?x1 ?piece1 rfl 300 ?before1
        (ix2 r ⟨k.val % 300, Nat.mod_lt _ (by decide)⟩) (row_kept r k _) ?on1).trans ?rest1
    case piece1 => rfl
    case lt1 => show 1 < 3; decide
    case before1 => rfl
    case on1 => show 300 + k.val % 300 = k.val; omega
    case rest1 =>
      exact (slice2_axis0_apply 1 _ slices_S2056x300_o1_0_S2048x300 r ⟨k.val % 300, Nat.mod_lt _ (by decide)⟩
          ⟨r.val + k.val / 300, by omega⟩ (by show r.val + k.val / 300 = 1 + r.val; omega)).trans
        (shapeCast_1ab_ab_apply v26 shapeCasts_S1x2056x300_S2056x300 ⟨r.val + k.val / 300, by omega⟩
          ⟨k.val % 300, Nat.mod_lt _ (by decide)⟩)
  · refine (concatenate_apply_piece (1 : Fin S2048x900.rank) _ _ (ix2 r k) 2 ?lt2 S2048x300 ?x2 ?piece2 rfl 600 ?before2
        (ix2 r ⟨k.val % 300, Nat.mod_lt _ (by decide)⟩) (row_kept r k _) ?on2).trans ?rest2
    case piece2 => rfl
    case lt2 => show 2 < 3; decide
    case before2 => rfl
    case on2 => show 600 + k.val % 300 = k.val; omega
    case rest2 =>
      exact (slice2_axis0_apply 2 _ slices_S2056x300_o2_0_S2048x300 r ⟨k.val % 300, Nat.mod_lt _ (by decide)⟩
          ⟨r.val + k.val / 300, by omega⟩ (by show r.val + k.val / 300 = 2 + r.val; omega)).trans
        (shapeCast_1ab_ab_apply v26 shapeCasts_S1x2056x300_S2056x300 ⟨r.val + k.val / 300, by omega⟩
          ⟨k.val % 300, Nat.mod_lt _ (by decide)⟩)

/-! ## The contraction's operand indices

The contraction runs over the second axis of both operands: at output entry (f, r) and contraction position q the
weights are read at (f, q) and the joined matrix at (r, q). -/

theorem lhs_axis0 (i : S32x2048.Idx) (q : dot_S32x900_S2048x900_S32x2048_1_1_0_0_n_n.contr.Idx) :
    (dot_S32x900_S2048x900_S32x2048_1_1_0_0_n_n.lhsIdx i q 0).val = (i 0).val := by
  unfold DotDims.lhsIdx
  rw [dif_neg (show ¬(0 : Fin S32x900.rank) ∈ dot_S32x900_S2048x900_S32x2048_1_1_0_0_n_n.lhsBatch by decide),
    dif_pos (show (0 : Fin S32x900.rank) ∈ dot_S32x900_S2048x900_S32x2048_1_1_0_0_n_n.lhsNonContracting by decide)]
  rfl

theorem lhs_axis1 (i : S32x2048.Idx) (q : dot_S32x900_S2048x900_S32x2048_1_1_0_0_n_n.contr.Idx) :
    (dot_S32x900_S2048x900_S32x2048_1_1_0_0_n_n.lhsIdx i q 1).val = (q ⟨0, by decide⟩).val :=
  dot_S32x900_S2048x900_S32x2048_1_1_0_0_n_n.lhsIdx_val_of_single rfl i q

theorem rhs_axis0 (i : S32x2048.Idx) (q : dot_S32x900_S2048x900_S32x2048_1_1_0_0_n_n.contr.Idx) :
    (dot_S32x900_S2048x900_S32x2048_1_1_0_0_n_n.rhsIdx i q 0).val = (i 1).val := by
  unfold DotDims.rhsIdx
  rw [dif_neg (show ¬(0 : Fin S2048x900.rank) ∈ dot_S32x900_S2048x900_S32x2048_1_1_0_0_n_n.rhsBatch by decide),
    dif_pos (show (0 : Fin S2048x900.rank) ∈ dot_S32x900_S2048x900_S32x2048_1_1_0_0_n_n.rhsNonContracting by decide)]
  rfl

theorem rhs_axis1 (i : S32x2048.Idx) (q : dot_S32x900_S2048x900_S32x2048_1_1_0_0_n_n.contr.Idx) :
    (dot_S32x900_S2048x900_S32x2048_1_1_0_0_n_n.rhsIdx i q 1).val = (q ⟨0, by decide⟩).val :=
  dot_S32x900_S2048x900_S32x2048_1_1_0_0_n_n.rhsIdx_val_of_single rfl i q

/-! ## The stored block at an entry -/

/-- Entry (f, r) of the block a step stores: filter f's weights against slab rows r, r + 1, r + 2 laid end to end, plus
    the filter's bias, rectified. -/
theorem pay_apply (v26 : Vec Ideal S1x2056x300 .f32) (v33 : Vec Ideal S32x900 .f32) (v36 : Vec Ideal S32x1 .f32)
    (f : Fin 32) (r : Fin 2048) :
    k0_pay1 (F := Ideal) (k0_pay2 v26) (k0_pay3 v33) (constant S32x2048 .f32 0x00000000#32) v36 (ix2 f r)
      = max ((∑ k : Fin 900, v33 (ix2 f k) * v26 (ix3 (0 : Fin 1)
            ⟨r.val + k.val / 300, by have := r.isLt; have := k.isLt; omega⟩ ⟨k.val % 300, Nat.mod_lt _ (by decide)⟩))
          + v36 (ix2 f (0 : Fin 1))) 0 := by
  unfold k0_pay1
  refine (maximumf_apply _ _ _).trans (congrArg₂ max ?_ ?_)
  · refine (addf_apply _ _ _).trans (congrArg₂ (· + ·) ?_ ?_)
    · refine (Ideal.matmul_constant_zero_apply _ none _ _ _).trans ?_
      rw [← Equiv.sum_comp (contrEquiv1 dot_S32x900_S2048x900_S32x2048_1_1_0_0_n_n 900 rfl rfl).symm]
      refine Finset.sum_congr rfl fun k _ => ?_
      have hk := contrEquiv1_symm_val dot_S32x900_S2048x900_S32x2048_1_1_0_0_n_n 900 rfl rfl k
      have el : dot_S32x900_S2048x900_S32x2048_1_1_0_0_n_n.lhsIdx (ix2 f r)
          ((contrEquiv1 dot_S32x900_S2048x900_S32x2048_1_1_0_0_n_n 900 rfl rfl).symm k) = ix2 f k :=
        funext fun a => Fin.ext (by
          match a with
          | ⟨0, _⟩ => exact lhs_axis0 _ _
          | ⟨1, _⟩ => exact (lhs_axis1 _ _).trans hk)
      have er : dot_S32x900_S2048x900_S32x2048_1_1_0_0_n_n.rhsIdx (ix2 f r)
          ((contrEquiv1 dot_S32x900_S2048x900_S32x2048_1_1_0_0_n_n 900 rfl rfl).symm k) = ix2 r k :=
        funext fun a => Fin.ext (by
          match a with
          | ⟨0, _⟩ => exact rhs_axis0 _ _
          | ⟨1, _⟩ => exact (rhs_axis1 _ _).trans hk)
      rw [el, er]
      exact congrArg (v33 (ix2 f k) * ·) (pay2_apply v26 r k)
    · refine (broadcastTo_apply _ broadcasts_S32x1_S32x2048 (ix2 f r) (ix2 f (0 : Fin 1)) fun a => ?_).trans ?_
      · match a with
        | ⟨0, _⟩ => show f.val = if (32 : Nat) = 1 then 0 else f.val; rw [if_neg (by decide)]
        | ⟨1, _⟩ => show (0 : Nat) = if (1 : Nat) = 1 then 0 else r.val; rw [if_pos rfl]
      · rw [shapeCast_self]
  · exact Ideal.ofBits_zero_f32

end Cert.Conv.Payload

end
-- ==== Proof.HostEnds.lean ====
/-
  The array operations around the blockwise computation, read at an index.

  Before the blocks are computed the sequence of 200000 rows is extended by 712 rows of zeros to 200712 rows, and the
  bias vector of 32 entries is viewed as a 32 × 1 column. Afterwards the first 199998 columns of the 32 × 200704 array
  the blocks fill are kept. Each is read at one index here: a row of the extended sequence below 200000 is that row of
  the sequence; entry (f, 0) of the column is entry f of the vector; entry (f, n) of the kept part is entry (f, n) of
  the filled array.
-/
import proofs.«151488_j42159398977944_1_alg».proof.Proof.Gen.KernelIdeal.Frame
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

set_option maxRecDepth 16384

noncomputable section

namespace Cert.Conv.HostEnds

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-! ## The extended sequence -/

/-- The extended sequence as one expression: the sequence padded below by 712 rows of the constant (the integer 0 read
    as a real), nothing added above, on the columns or between entries. -/
theorem xpad_eq (c : Dev nD) :
    (V m c main_v0 : S200712x300.Idx → EReal)
      = pad S200712x300 ![0, 0] ![712, 0] ![0, 0] (m ((c : Thread nD τ).loc main_arg0) : S200000x300.Idx → EReal)
          (sitofp (F := Ideal) .f32 (constantI S_ 32 0#32)) pads_S200000x300_S200712x300_07120_000 h_S_ := by
  dsimp only [Gen.V, Gen.V0]
  simp only [Gen.hostOps0, Gen.hostOps0_1, Gen.hostOps0_2, List.flatten_cons, List.flatten_nil, List.append_nil,
    List.cons_append, List.nil_append]
  after_results
  rfl

/-- The first 200000 rows of the extended sequence are the sequence: with no low padding and no interior padding,
    index (r, e) of the result is index (r, e) of the operand. -/
theorem xpad_apply (c : Dev nD) (r : Fin 200000) (e : Fin 300) :
    (V m c main_v0 : S200712x300.Idx → EReal) (ix2 ⟨r.val, by have := r.isLt; omega⟩ e)
      = (m ((c : Thread nD τ).loc main_arg0) : S200000x300.Idx → EReal) (ix2 r e) := by
  rw [xpad_eq m c]
  refine pad_apply_of_inside _ _ _ _ _ _ _ _ (ix2 r e) (fun a => ?_)
  match a with
  | ⟨0, _⟩ => show r.val = 0 + r.val * (0 + 1); omega
  | ⟨1, _⟩ => show e.val = 0 + e.val * (0 + 1); omega

/-! ## The bias column -/

/-- The bias column as one expression: the bias vector with its 32 entries in the same row-major order at shape
    32 × 1. -/
theorem bias_eq (c : Dev nD) :
    (V m c main_v1 : S32x1.Idx → EReal)
      = shapeCast S32x1 (m ((c : Thread nD τ).loc main_arg2) : S32.Idx → EReal) shapeCasts_S32_S32x1 := by
  dsimp only [Gen.V, Gen.V0]
  simp only [Gen.hostOps0, Gen.hostOps0_1, Gen.hostOps0_2, List.flatten_cons, List.flatten_nil, List.append_nil,
    List.cons_append, List.nil_append]
  after_results
  rfl

/-- The bias column is the bias vector: (f, 0) has row-major position f · 1 + 0 = f. -/
theorem bias_apply (c : Dev nD) (f : Fin 32) :
    (V m c main_v1 : S32x1.Idx → EReal) (ix2 f (0 : Fin 1))
      = (m ((c : Thread nD τ).loc main_arg2) : S32.Idx → EReal) (ix1 f) := by
  rw [bias_eq m c]
  refine shapeCast_apply _ _ _ (ix1 f) ?_
  rw [Shape.rowMajor_val_one, Shape.rowMajor_val_two]
  show f.val = f.val * 1 + 0
  omega

/-! ## The kept columns -/

/-- The result is the first 199998 columns of the array the blocks fill, whatever that array is shown to be: a cut
    from offset (0, 0) keeps the index. -/
theorem tail_apply (c : Dev nD) (X : S32x200704.Idx → EReal) (hX : (dats m 0 c).arrAt 2 cfg0.N = X) (f : Fin 32)
    (n : Fin 199998) :
    (Pipeline.afterTail₀ cfgs (dats m) 0 (V0 m) [hostOps1] c main_v3 : S32x199998.Idx → EReal) (ix2 f n)
      = X (ix2 f ⟨n.val, by have := n.isLt; omega⟩) := by
  unfold Pipeline.afterTail₀
  show StableHlo.after hostOps1 _ (Proc.devRef .tc main_v3) (ix2 f n) = _
  after_results
  refine (slice2_axis1_apply 0 _ slices_S32x200704_S32x199998_0_0 f n ⟨n.val, by have := n.isLt; omega⟩
    (by show n.val = 0 + n.val; omega)).trans ?_
  exact congrFun ((Pipeline.withArrays_arr spec0 launch0.win.arr_inj c _ _ 2).trans hX) _

end Cert.Conv.HostEnds

end
-- ==== Proof.KernelValue.lean ====
/-
  The array the kernel program returns is the sliding-window layer of its arguments.

  Point `t` of the grid stores block `t` of the widened result: 32 filters by the 2048 columns `2048 t … 2048 t + 2047`.
  What it stores (Stored.lean) is the body's arithmetic of the slab of rows `2048 t … 2048 t + 2055` of the extended
  sequence, of the weights and of the bias column; read at filter `f` and local column `r` (Payload.lean) that is the
  rectified contraction of filter `f` with the three rows `2048 t + r …` laid end to end: entry `(f, 2048 t + r)` of
  `convPadded` (`stored_apply`, `flushed_eq`). The 98 blocks tile the 200704 columns (`cover`), so the output array
  after the region is `convPadded` of the extended sequence (`wide_eq`); the program then keeps the first 199998
  columns, whose windows end inside the sequence proper, where the extension is the sequence (HostEnds.lean): the
  returned array is `convOut` of the three arguments (`result_eq`, `run`).
-/
import proofs.«151488_j42159398977944_1_alg».proof.Proof.Spec
import proofs.«151488_j42159398977944_1_alg».proof.Proof.Stored
import proofs.«151488_j42159398977944_1_alg».proof.Proof.Payload
import proofs.«151488_j42159398977944_1_alg».proof.Proof.HostEnds
import Idealize.ShloMosaic.Lib.Pipeline.Value
import Idealize.ShloMosaic.Lib.ValueIdx

set_option maxRecDepth 16384

noncomputable section

open scoped BigOperators

namespace Cert.Conv.KernelValue

open Cert.KernelIdeal Cert.KernelIdeal.Gen
open Idealize.ShloMosaic Idealize.ShloMosaic.TcCoe Idealize.SL.Sem Idealize.ShloMosaic.ValueIdx
open Idealize.ShloMosaic.Pipeline (Dat)
open Cert.Conv

variable (m : (ℓ : Loc nD τ sig) → Buf (Elt Ideal) ℓ) (ρ : Dev nD → PrngReg)

/-- The three arguments and the extended sequence, as plain arrays of extended reals. -/
abbrev seqArr (c : Dev nD) : S200000x300.Idx → EReal := m ((c : Thread nD τ).loc main_arg0)
abbrev wts (c : Dev nD) : S32x900.Idx → EReal := m ((c : Thread nD τ).loc main_arg1)
abbrev bias (c : Dev nD) : S32.Idx → EReal := m ((c : Thread nD τ).loc main_arg2)
abbrev seqExt (c : Dev nD) : S200712x300.Idx → EReal := V m c main_v0

/-- The widened result: every one of the 200704 columns, over the extended sequence. -/
abbrev wide (c : Dev nD) : S32x200704.Idx → EReal := convPadded (seqExt m c) (wts m c) (bias m c)

/-! ## Which block each window shows at a point -/

/-- The weights and the bias column are shown whole at every point; the output's block at point `t` is block `t` along the
    columns. Decided over the 98 points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- The weights' block is the weights. -/
theorem wblk_apply (c : Dev nD) (t : Fin cfg0.N) (f : Fin 32) (k : Fin 900) :
    (iblk m c 0 t : S32x900.Idx → EReal) (ix2 f k) = wts m c (ix2 f k) := by
  obtain ⟨e0, e1, -⟩ := idx_facts t
  show V m c main_arg1 (((cfg0.win 0).blk t).view.emb (ix2 f k)) = _
  rw [V_main_arg1]
  refine congrArg (wts m c) (funext fun a => Fin.ext ?_)
  match a with
  | ⟨0, _⟩ => show win0_0.index t (0 : Fin 2) * 32 + 1 * f.val = f.val; omega
  | ⟨1, _⟩ => show win0_0.index t (1 : Fin 2) * 900 + 1 * k.val = k.val; omega

/-- The bias column's block, at filter `f`, is the bias of filter `f`. -/
theorem bblk_apply (c : Dev nD) (t : Fin cfg0.N) (f : Fin 32) :
    (iblk m c 1 t : S32x1.Idx → EReal) (ix2 f (0 : Fin 1)) = bias m c (ix1 f) := by
  obtain ⟨-, -, e2, e3, -⟩ := idx_facts t
  have h : (iblk m c 1 t : S32x1.Idx → EReal) (ix2 f (0 : Fin 1)) = (V m c main_v1 : S32x1.Idx → EReal) (ix2 f (0 : Fin 1)) := by
    show (V m c main_v1 : S32x1.Idx → EReal) (((cfg0.win 1).blk t).view.emb (ix2 f (0 : Fin 1))) = _
    refine congrArg (V m c main_v1 : S32x1.Idx → EReal) (funext fun a => Fin.ext ?_)
    match a with
    | ⟨0, _⟩ => show win0_1.index t (0 : Fin 2) * 32 + 1 * f.val = f.val; omega
    | ⟨1, _⟩ => show win0_1.index t (1 : Fin 2) * 1 + 1 * 0 = 0; omega
  rw [h]
  exact HostEnds.bias_apply m c f

/-! ## What a point stores, entry by entry -/

/-- Entry `(f, r)` of the block point `t` stores is filter `f` at column `2048 t + r` over the extended sequence. -/
theorem stored_apply (c : Dev nD) (t : Fin cfg0.N) (f : Fin 32) (r : Fin 2048) :
    Stored.stored c t (iblk m c 0 t) (iblk m c 1 t) (V m c main_v0) (ix2 f r)
      = convRelu (seqExt m c) (wts m c) (bias m c) f (2048 * t.val + r.val) (by
          have hN : t.val < 98 := lt_of_lt_of_eq t.isLt (show cfg0.N = 98 from N_0)
          have := r.isLt; omega) := by
  have hN : t.val < 98 := lt_of_lt_of_eq t.isLt (show cfg0.N = 98 from N_0)
  have hr := r.isLt
  refine (Payload.pay_apply (Stored.slab c t (V m c main_v0)) (iblk m c 0 t) (iblk m c 1 t) f r).trans ?_
  unfold convRelu
  refine congrArg₂ max (congrArg₂ (· + ·) (Finset.sum_congr rfl fun k _ => ?_) (bblk_apply m c t f)) rfl
  have hk := k.isLt
  rw [wblk_apply m c t f k, Stored.slab_apply c t (V m c main_v0) (0 : Fin 1) ⟨r.val + k.val / 300, by omega⟩ ⟨k.val % 300, Nat.mod_lt _ (by decide)⟩]
  unfold winEntry
  refine congrArg (fun z => wts m c (ix2 f k) * seqExt m c (ix2 z ⟨k.val % 300, Nat.mod_lt _ (by decide)⟩)) (Fin.ext ?_)
  show 2048 * t.val + (r.val + k.val / 300) = 2048 * t.val + r.val + k.val / 300
  omega

/-- WHAT POINT `t` WRITES BACK is block `t` of the widened result. -/
theorem flushed_eq (c : Dev nD) (t : Fin cfg0.N) :
    (dats m 0 c).flushed 2 t = ((cfg0.win 2).blk t).view.read (Elt Ideal) (wide m c) := by
  have hN : t.val < 98 := lt_of_lt_of_eq t.isLt (show cfg0.N = 98 from N_0)
  show (cfg0.win 2).cut (grid0.coords t) ((dats m 0 c).after 2 t) = _
  rw [after0_2, Stored.outsAt_eq]
  obtain ⟨-, -, -, -, e4, e5⟩ := idx_facts t
  funext j
  obtain ⟨f, r, rfl⟩ : ∃ (f : Fin 32) (r : Fin 2048), j = ix2 f r := ⟨j 0, j 1, eq_ix2 j⟩
  have hr := r.isLt
  show Stored.stored c t (iblk m c 0 t) (iblk m c 1 t) (V m c main_v0) (ix2 f r)
      = wide m c (((cfg0.win 2).blk t).view.emb (ix2 f r))
  have hidx : (((cfg0.win 2).blk t).view.emb (ix2 f r) : S32x200704.Idx)
      = ix2 f ⟨2048 * t.val + r.val, by omega⟩ := by
    funext (a : Fin 2)
    apply Fin.ext
    match a with
    | ⟨0, _⟩ => show win0_2.index t (0 : Fin 2) * 32 + 1 * f.val = f.val; omega
    | ⟨1, _⟩ => show win0_2.index t (1 : Fin 2) * 2048 + 1 * r.val = 2048 * t.val + r.val; omega
  rw [hidx, stored_apply m c t f r]
  rfl

/-! ## The blocks tile the columns -/

/-- An index of the output array is in point `t`'s block iff each coordinate is in the block's range on its axis. -/
theorem mem_blk (t : Fin cfg0.N) (i : S32x200704.Idx) :
    i ∈ ((cfg0.win 2).blk t).view.set ↔ ∀ a : Fin 2, win0_2.index t a * S32x2048.size a ≤ (i a).val
      ∧ (i a).val < win0_2.index t a * S32x2048.size a + S32x2048.size a := by
  show i ∈ ((View.whole main_v2).slice (win0_2.rect t)).set ↔ _
  rw [View.set_slice_whole, Rect.mem_set_unit]
  exact Iff.rfl

/-- Column `n` lies in the block of point `n / 2048`. -/
theorem cover (i : S32x200704.Idx) :
    ∃ t : Fin cfg0.N, (cfg0.win 2).flush t = true ∧ i ∈ ((cfg0.win 2).blk t).view.set := by
  have h0 := idx2_lt0 i
  have h1 := idx2_lt1 i
  have hN : cfg0.N = 98 := N_0
  refine ⟨⟨(i 1).val / 2048, by omega⟩, flush0_2 _, ?_⟩
  rw [mem_blk]
  obtain ⟨-, -, -, -, e4, e5⟩ := idx_facts ⟨(i 1).val / 2048, by omega⟩
  intro a
  match a with
  | ⟨0, _⟩ =>
    show win0_2.index ⟨(i 1).val / 2048, _⟩ (0 : Fin 2) * 32 ≤ (i 0).val
      ∧ (i 0).val < win0_2.index ⟨(i 1).val / 2048, _⟩ (0 : Fin 2) * 32 + 32
    rw [e4]; omega
  | ⟨1, _⟩ =>
    show win0_2.index ⟨(i 1).val / 2048, _⟩ (1 : Fin 2) * 2048 ≤ (i 1).val
      ∧ (i 1).val < win0_2.index ⟨(i 1).val / 2048, _⟩ (1 : Fin 2) * 2048 + 2048
    rw [e5]; show (i 1).val / 2048 * 2048 ≤ (i 1).val ∧ (i 1).val < (i 1).val / 2048 * 2048 + 2048; omega

/-- THE OUTPUT ARRAY after the region is the widened result. -/
theorem wide_eq (c : Dev nD) : (dats m 0 c).arrAt 2 cfg0.N = wide m c :=
  (dats m 0 c).arrAt_eq_of_cover 2 (wide m c) (fun t _ => flushed_eq m c t) cover

/-! ## The returned array -/

/-- THE RESULT: the first 199998 columns of the widened result are the layer over the sequence proper. -/
theorem result_eq (c : Dev nD) :
    (Pipeline.afterTail₀ cfgs (dats m) 0 (V0 m) [hostOps1] c main_v3 : S32x199998.Idx → EReal)
      = convOut (seqArr m c) (wts m c) (bias m c) := by
  funext i
  obtain ⟨f, n, rfl⟩ : ∃ (f : Fin 32) (n : Fin 199998), i = ix2 f n := ⟨i 0, i 1, eq_ix2 i⟩
  rw [HostEnds.tail_apply m c (wide m c) (wide_eq m c) f n]
  exact convPadded_eq_convOut (seqExt m c) (seqArr m c) (wts m c) (bias m c) (fun r e => HostEnds.xpad_apply m c r e) f n

/-- The kernel program's run, read: it terminates with its result at the layer of its arguments, the arguments unchanged. -/
theorem run : θ_run defs (onTc (τ := τ) (main (F := Ideal))) ⟨m, fun _ => 0, ρ⟩ fun r => ∀ c : Dev nD,
      r.2.mem ((c.tc : Thread nD τ).loc main_v3) = convOut (seqArr m c) (wts m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.Conv.KernelValue

end
-- ==== Proof.LibRows.lean ====
/-
  A row gather and a row scatter-add read at an index.

  `x[i]` along axis 0 of a matrix or of a rank-3 array is a gather whose start indices are an `[E, 1]` column of row
  numbers: the operand's axis 0 is collapsed and start-indexed, its other axes are offset axes. Result row `e` is the
  operand's row whose number is entry `e` of the column, read as a signed integer and clamped into `[0, N - 1]`
  (`gather_rows2`, `gather_rows3`).

  A segment sum along axis 0 is a scatter with an add body over the same column: the operand's axis 0 is inserted and
  indexed, the other axes are the updates' window axes. At the extended reals the result at row `n` is the operand's
  element plus the sum of the update rows `e` whose row number, read signed and NOT clamped, is `n`; a row number
  outside `[0, N)` lands nowhere and contributes nothing (`scatterAdd_rows2`, `scatterAdd_rows3`).

  Each is proved by reading the dimension numbers' index functions axis by axis: on the row axis the start is the
  column's entry and the window or offset coordinate is 0; on every other axis the start is 0 and the coordinate is
  the update's or result's own. For the scatters this gives "update `(e, c)` lands at `(n, c')` iff entry `e` is `n` and
  `c = c'`", and the filtered sum over update indices is re-indexed by the row `e` alone.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Axis 1 of two is not axis 0. -/
theorem fin2_one_nmem : (1 : Fin 2) ∉ ([0] : List (Fin 2)) := by decide
/-- Axis 1 of three is not axis 0. -/
theorem fin3_one_nmem : (1 : Fin 3) ∉ ([0] : List (Fin 3)) := by decide
/-- Axis 2 of three is not axis 0. -/
theorem fin3_two_nmem : (2 : Fin 3) ∉ ([0] : List (Fin 3)) := by decide

/-! ## The row scatter-add over a matrix: `[N, C]` operand, `[E, 1]` row numbers, `[E, C]` updates -/

section Scatter2
variable {N C E w : Nat} (d : ScatterDims ⟨2, ![N, C]⟩ ⟨2, ![E, 1]⟩ ⟨2, ![E, C]⟩)

/-- On the row axis the window of update `(e, c)` starts at row number `e`'s entry, read signed. -/
theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On the column axis, which the map does not name, the window starts at 0. -/
theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

/-- The row axis is inserted: its window coordinate is 0. -/
theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

/-- The column axis takes the update's column. -/
theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

/-- Update `(e, c)` lands at `(n, c')` exactly when row number `e`'s entry, read signed, is `n` and the columns agree;
    an entry outside `[0, N)` lands nowhere. -/
theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

/-- THE ROW SCATTER-ADD READ AT `(n, c)` (a segment sum over a matrix: the operand's axis 0 inserted and indexed by the
    `[E, 1]` column of row numbers, its axis 1 the updates' window axis): the operand's element plus the sum of column `c`
    of the update rows `e` whose row number, read signed, is `n`. A row number outside `[0, N)` contributes nowhere. -/
theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

/-! ## The row scatter-add over a rank-3 array: `[N, H, K]` operand, `[E, 1]` row numbers, `[E, H, K]` updates -/

section Scatter3
variable {N H K E w : Nat} (d : ScatterDims ⟨3, ![N, H, K]⟩ ⟨2, ![E, 1]⟩ ⟨3, ![E, H, K]⟩)

/-- On the row axis the window of update `(e, h, k)` starts at row number `e`'s entry, read signed. -/
theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 1, which the map does not name, the window starts at 0. -/
theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

/-- On axis 2, which the map does not name, the window starts at 0. -/
theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

/-- The row axis is inserted: its window coordinate is 0. -/
theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

/-- Axis 1 takes the update's coordinate on its axis 1. -/
theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

/-- Axis 2 takes the update's coordinate on its axis 2. -/
theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

/-- Update `(e, h, k)` lands at `(n, h', k')` exactly when row number `e`'s entry, read signed, is `n` and the other two
    coordinates agree; an entry outside `[0, N)` lands nowhere. -/
theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

/-- THE ROW SCATTER-ADD READ AT `(n, h, k)` (a segment sum over a rank-3 array: the operand's axis 0 inserted and indexed
    by the `[E, 1]` column of row numbers, its axes 1 and 2 the updates' window axes): the operand's element plus the sum
    of entry `(h, k)` of the update rows `e` whose row number, read signed, is `n`. A row number outside `[0, N)`
    contributes nowhere. -/
theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

/-! ## The row gather from a matrix: `[N, C]` operand, `[E, 1]` row numbers, `[E, C]` result -/

section Gather2
variable {N C E w : Nat} (d : GatherDims ⟨2, ![N, C]⟩ ⟨2, ![E, 1]⟩ ⟨2, ![E, C]⟩)

/-- On the row axis the slice of result `(e, c)` starts at row number `e`'s entry, read signed and clamped into
    `[0, N - 1]`. -/
theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On the column axis, which the start index map does not name, the slice starts at 0. -/
theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

/-- The row axis is collapsed: its offset coordinate is 0. -/
theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

/-- The column axis takes the result's column. -/
theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

/-- THE ROW GATHER READ AT `(e, c)` (`x[i]` of a matrix: the operand's axis 0 collapsed and indexed by the `[E, 1]` column
    of row numbers, its axis 1 an offset axis): column `c` of the operand's row whose number is entry `e` of the column,
    read signed and clamped into `[0, N - 1]`. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

/-! ## The row gather from a rank-3 array: `[N, H, K]` operand, `[E, 1]` row numbers, `[E, H, K]` result -/

section Gather3
variable {N H K E w : Nat} (d : GatherDims ⟨3, ![N, H, K]⟩ ⟨2, ![E, 1]⟩ ⟨3, ![E, H, K]⟩)

/-- On the row axis the slice of result `(e, h, k)` starts at row number `e`'s entry, read signed and clamped into
    `[0, N - 1]`. -/
theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On axis 1, which the start index map does not name, the slice starts at 0. -/
theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

/-- On axis 2, which the start index map does not name, the slice starts at 0. -/
theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

/-- The row axis is collapsed: its offset coordinate is 0. -/
theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

/-- Axis 1 takes the result's coordinate on its axis 1. -/
theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

/-- Axis 2 takes the result's coordinate on its axis 2. -/
theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

/-- THE ROW GATHER READ AT `(e, h, k)` (`x[i]` of a rank-3 array: the operand's axis 0 collapsed and indexed by the
    `[E, 1]` column of row numbers, its axes 1 and 2 offset axes): entry `(h, k)` of the operand's row whose number is entry
    `e` of the column, read signed and clamped into `[0, N - 1]`. -/
theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.LibRowsWin.lean ====
/-
  A row gather whose row numbers form a block.

  `x[idx]` along axis 0 of a matrix, for a rank-2 array `idx` of row numbers, is a gather whose start indices are an
  `[E, Wn, 1]` block: the operand's axis 0 is collapsed and start-indexed, its axis 1 is the one offset axis, and the
  result's axes 0 and 1 are batch axes that run over the block. Result entry `(e, j, c)` is column `c` of the operand's
  row whose number is entry `(e, j)` of the block, read as a signed integer and clamped into `[0, N - 1]`.

  As for a column of row numbers, the proof reads the dimension numbers' index functions axis by axis: on the row axis the
  start is the block's entry at the result's two batch coordinates and the offset coordinate is 0; on the column axis the
  start is 0 and the offset coordinate is the result's own column.
-/
import proofs.«151488_j42159398977944_1_alg».proof.Proof.LibRows

noncomputable section

namespace Cert.LibRowsWin

open Idealize.ShloMosaic Idealize.ShloMosaic.ValueIdx Cert.LibRows

section GatherWin
variable {N C E Wn w : Nat} (d : GatherDims ⟨2, ![N, C]⟩ ⟨3, ![E, Wn, 1]⟩ ⟨3, ![E, Wn, C]⟩)

/-- On the row axis the slice of result `(e, j, c)` starts at the block's entry `(e, j)`, read signed and clamped into
    `[0, N - 1]`: the result's two batch axes are the block's two axes that are not the index vector's. -/
theorem gw_start0 (hoff : d.offsetDims = [2]) (hcoll : d.collapsedSliceDims = [0])
    (hsim : d.startIndexMap = [0]) (hivd : d.indexVectorDim = 2)
    (idx : IVec ⟨3, ![E, Wn, 1]⟩ w) (j : (⟨3, ![E, Wn, C]⟩ : Shape).Idx) :
    d.start j idx 0 = min (idx (ix3 (j 0) (j 1) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl
  | ⟨2, _⟩ => rfl

/-- On the column axis, which the start index map does not name, the slice starts at 0. -/
theorem gw_start1 (hsim : d.startIndexMap = [0]) (idx : IVec ⟨3, ![E, Wn, 1]⟩ w) (j : (⟨3, ![E, Wn, C]⟩ : Shape).Idx) :
    d.start j idx 1 = 0 := by
  unfold GatherDims.start
  rw [dif_neg (by rw [hsim]; exact fin2_one_nmem)]

/-- The row axis is collapsed: its offset coordinate is 0. -/
theorem gw_off0 (hcoll : d.collapsedSliceDims = [0]) (j : (⟨3, ![E, Wn, C]⟩ : Shape).Idx) :
    d.offCoord j 0 = 0 :=
  d.offCoord_eq_zero j 0 fun h => ((d.mem_sKept 0).1 h).1 (by rw [hcoll]; exact List.mem_singleton.mpr rfl)

/-- The column axis takes the result's coordinate on its one offset axis, axis 2. -/
theorem gw_off1 (hoff : d.offsetDims = [2]) (hcoll : d.collapsedSliceDims = [0]) (hob : d.operandBatchingDims = [])
    (j : (⟨3, ![E, Wn, C]⟩ : Shape).Idx) :
    d.offCoord j 1 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end GatherWin

/-- THE ROW GATHER OVER A BLOCK OF ROW NUMBERS, READ AT `(e, j, c)` (`x[idx]` of a matrix for a rank-2 `idx`: the
    operand's axis 0 collapsed and indexed by the `[E, Wn, 1]` block, its axis 1 the offset axis): column `c` of the
    operand's row whose number is entry `(e, j)` of the block, read signed and clamped into `[0, N - 1]`. -/
theorem gather_rows2_win {α : Type} {N C E Wn w : Nat} (hN : 0 < N)
    (d : GatherDims ⟨2, ![N, C]⟩ ⟨3, ![E, Wn, 1]⟩ ⟨3, ![E, Wn, C]⟩)
    (hoff : d.offsetDims = [2]) (hcoll : d.collapsedSliceDims = [0])
    (hob : d.operandBatchingDims = []) (hsim : d.startIndexMap = [0]) (hivd : d.indexVectorDim = 2)
    (x : (⟨2, ![N, C]⟩ : Shape).Idx → α) (idx : IVec ⟨3, ![E, Wn, 1]⟩ w) (e : Fin E) (j : Fin Wn) (c : Fin C) :
    Host.gather d x idx (ix3 e j c)
      = x (ix2 ⟨min (idx (ix3 e j (0 : Fin 1))).toInt.toNat (N - 1), by omega⟩ c) := by
  have hb : ∀ a, d.batchCoord (ix3 e j c) a = 0 := fun a =>
    d.batchCoord_eq_zero _ a (by rw [hob]; exact List.not_mem_nil)
  unfold Host.gather
  congr 1
  funext a
  refine Fin.ext ?_
  match a with
  | ⟨0, _⟩ =>
    show d.start (ix3 e j c) idx 0 + d.batchCoord (ix3 e j c) 0 + d.offCoord (ix3 e j c) 0 = _
    rw [hb, gw_off0 d hcoll, gw_start0 d hoff hcoll hsim hivd]
    rfl
  | ⟨1, _⟩ =>
    show d.start (ix3 e j c) idx 1 + d.batchCoord (ix3 e j c) 1 + d.offCoord (ix3 e j c) 1 = _
    rw [hb, gw_off1 d hoff hcoll hob, gw_start1 d hsim]
    show 0 + 0 + c.val = c.val
    omega

end Cert.LibRowsWin

end
-- ==== Proof.RefValue.lean ====
/-
  The reference program's result is the sliding-window layer.

  The reference builds, for every window `n` and every one of its three rows `j`, the row number `n + j` as a 32-bit
  word (two counters added), passes it through the test "negative? then add 200000" (never taken: `0 ≤ n + j`), gathers
  those rows of the sequence, lays the three rows of a window end to end (a reshape: entry `k` of the 900 is column
  `k % 300` of row `k / 300` of the window), contracts with the transposed weights, adds the bias, takes the maximum
  with 0 and transposes. Read at an index `(f, c)` this is `max (Σ_k x[c + k / 300, k % 300] · W[f, k] + b[f]) 0`, the
  specification's value up to the order of the two factors.
-/
import proofs.«151488_j42159398977944_1_alg».proof.Proof.Spec
import proofs.«151488_j42159398977944_1_alg».proof.Proof.LibRowsWin
import proofs.«151488_j42159398977944_1_alg».proof.Proof.Gen.ReferenceIdeal.Read
import Idealize.ShloMosaic.Lib.StableHlo.Predicate

noncomputable section

open scoped BigOperators

namespace Cert.Conv.RefValue

open Idealize.ShloMosaic Idealize.ShloMosaic.ValueIdx Idealize.ShloMosaic.StableHlo
open Cert.ReferenceIdeal Cert.ReferenceIdeal.Gen Cert.ReferenceIdeal.Read

/-! ## The block of row numbers -/

/-- The sum of the two counters at `(n, j)` is the word of `n + j`. -/
theorem rowWord (i : S199998x3.Idx) :
    val_main_v6 (F := Ideal) i = BitVec.ofNat 32 ((i 0).val + (i 1).val) := by
  rw [val_main_v6_apply, val_main_v4_apply, val_main_v1_apply, val_main_v0_apply, val_main_v5_apply, val_main_v3_apply,
    val_main_v2_apply]
  exact (BitVec.ofNat_add _ _).symm

/-- The sign test leaves the word alone: `n + j` is not negative, so "add 200000 where negative" is not taken. -/
theorem rowWord_wrapped (i : S199998x3.Idx) :
    val_main_v11 (F := Ideal) i = BitVec.ofNat 32 ((i 0).val + (i 1).val) := by
  have h0 := idx2_lt0 i
  have h1 := idx2_lt1 i
  have hc : ¬ val_main_v8 (F := Ideal) i = (1 : BitVec 1) := by
    rw [val_main_v8_apply, val_main_v7_apply, val_main_c_apply, rowWord]
    intro h
    have := (Predicate.slt_iff_toNat (by rw [BitVec.toNat_ofNat]; omega) (by decide)).1 h
    simp at this
  rw [val_main_v11_apply, Scalar.select, if_neg hc, rowWord]

/-- Entry `(n, j)` of the block of row numbers, read as a signed integer and clamped into the sequence, is `n + j`. -/
theorem rowNumber (e : Fin 199998) (j : Fin 3) :
    min (val_main_v12 (F := Ideal) (ix3 e j (0 : Fin 1))).toInt.toNat (200000 - 1) = e.val + j.val := by
  have he := e.isLt
  have hj := j.isLt
  rw [val_main_v12_apply, rowWord_wrapped]
  show min (BitVec.ofNat 32 (e.val + j.val)).toInt.toNat (200000 - 1) = e.val + j.val
  rw [Predicate.toInt_ofNat_small _ (by omega), Int.toNat_natCast]
  omega

/-! ## The gathered rows and the window laid end to end -/

/-- Entry `(n, j, c)` of the gathered block is column `c` of row `n + j` of the sequence. -/
theorem gathered (x0 : (⟨S200000x300, .f32⟩ : BufTy).Contents (Elt Ideal)) (e : Fin 199998) (j : Fin 3) (c : Fin 300) :
    val_main_v13 (F := Ideal) x0 (ix3 e j c) = x0 (ix2 ⟨e.val + j.val, by have := e.isLt; have := j.isLt; omega⟩ c) := by
  unfold val_main_v13
  refine (Cert.LibRowsWin.gather_rows2_win (N := 200000) (C := 300) (E := 199998) (Wn := 3) (w := 32) (by decide)
    gather_S200000x300_S199998x3x1_S199998x3x300_2_0_n_n_0_2_1300 rfl rfl rfl rfl rfl x0 _ e j c).trans ?_
  exact congrArg (fun r => x0 (ix2 r c)) (Fin.ext (rowNumber e j))

/-- Entry `(n, k)` of the reshaped block, the window of `n` laid end to end, is column `k % 300` of row `n + k / 300`. -/
theorem window (x0 : (⟨S200000x300, .f32⟩ : BufTy).Contents (Elt Ideal)) (n : Fin 199998) (k : Fin 900) :
    val_main_v14 (F := Ideal) x0 (ix2 n k) = winEntry x0 n.val (by have := n.isLt; omega) k := by
  have hn := n.isLt
  have hk := k.isLt
  have hi : idx_main_v14 (ix2 n k)
      = ix3 n ⟨k.val / 300, by omega⟩ ⟨k.val % 300, Nat.mod_lt _ (by decide)⟩ := by
    funext a
    match a with
    | ⟨0, _⟩ => exact Fin.ext (by show (n.val * 900 + k.val) / 900 = n.val; omega)
    | ⟨1, _⟩ => exact Fin.ext (by show (n.val * 900 + k.val) / 300 % 3 = k.val / 300; omega)
    | ⟨2, _⟩ => exact Fin.ext (by show (n.val * 900 + k.val) % 300 = k.val % 300; omega)
  rw [val_main_v14_apply, hi, gathered]
  rfl

/-! ## The whole reference -/

/-- THE REFERENCE'S RESULT IS THE SLIDING-WINDOW LAYER: at `(f, c)` the maximum with 0 of the bias plus the contraction of
    filter `f` with the window of `c`. The reference multiplies window entry by weight, the specification weight by window
    entry. -/
theorem ref_eq (x0 : (⟨Cert.ReferenceIdeal.S200000x300, .f32⟩ : BufTy).Contents (Elt Ideal))
    (x1 : (⟨Cert.ReferenceIdeal.S32x900, .f32⟩ : BufTy).Contents (Elt Ideal))
    (x2 : (⟨Cert.ReferenceIdeal.S32, .f32⟩ : BufTy).Contents (Elt Ideal)) :
    Cert.ReferenceIdeal.Read.val_main_v22 (F := Ideal) x0 x1 x2 = Cert.Conv.convOut x0 x1 x2 := by
  funext i
  obtain ⟨f, c, rfl⟩ : ∃ (f : Fin 32) (c : Fin 199998), i = ix2 f c := ⟨i 0, i 1, eq_ix2 i⟩
  have hc := c.isLt
  have hR : convOut x0 x1 x2 (ix2 f c)
      = max ((∑ k : Fin 900, x1 (ix2 f k) * winEntry x0 c.val (by omega) k) + x2 (ix1 f)) 0 := rfl
  rw [hR, val_main_v22_apply, val_main_v21_apply, val_main_v19_apply, val_main_v16_apply, val_main_v20_apply,
    val_main_cst_apply, val_main_v18_apply, val_main_v17_apply]
  have hl : ∀ k : Fin 900, lidx_main_v16 (idx_main_v22 (ix2 f c)) k = ix2 c k := fun k => by
    funext a
    match a with
    | ⟨0, _⟩ => rfl
    | ⟨1, _⟩ => rfl
  have hr : ∀ k : Fin 900, idx_main_v15 (ridx_main_v16 (idx_main_v22 (ix2 f c)) k) = ix2 f k := fun k => by
    funext a
    match a with
    | ⟨0, _⟩ => rfl
    | ⟨1, _⟩ => rfl
  have hb : idx_main_v17 (idx_main_v18 (idx_main_v22 (ix2 f c))) = ix1 f := by
    funext a
    match a with
    | ⟨0, _⟩ => rfl
  refine congrArg₂ max (congrArg₂ (· + ·) (Finset.sum_congr rfl fun k _ => ?_) (congrArg x2 hb)) Ideal.ofBits_zero_f32
  rw [val_main_v15_apply, hl, hr, window]
  exact mul_comm _ _

end Cert.Conv.RefValue

end
-- ==== Proof.lean ====
/- A one-dimensional convolution over a long sequence, as a Pallas kernel, against its plain reference.

   The sequence `x` has 200000 rows of 300 entries; a filter `f` (32 of them) has 900 weights and a bias. Output column
   `c` of filter `f` is `max (Σ_{k<900} W[f, k] · x[c + k / 300, k % 300] + b[f]) 0`: the rows `c`, `c + 1`, `c + 2`
   laid end to end, contracted with the filter, shifted by the bias, rectified (Proof/Spec.lean, `convOut`).

   The reference gathers the three rows of every window, lays them end to end, multiplies by the transposed weights, adds
   the bias, rectifies and transposes: at every index that is `convOut` with the two factors of each product in the other
   order (Proof/RefValue.lean, over the row gather read at an index: Proof/LibRows.lean, Proof/LibRowsWin.lean).

   The kernel extends the sequence by 712 zero rows, walks a grid of 98 points and at point `t` loads the slab of rows
   `2048 t … 2048 t + 2055` (streamed through two slots of a scratch buffer by copies it starts one point ahead), lays
   three shifted copies of the slab side by side, multiplies with the weights (in a narrower float format: at the extended
   reals a change of format is the identity), adds the bias column and rectifies: block `t` of a result of 200704
   columns (Proof/Stored.lean: what a point stores; Proof/Payload.lean: that block entry by entry;
   Proof/KernelValue.lean: the 98 blocks tile the columns). It returns the first 199998 columns, whose windows end inside
   the sequence proper, so the zero rows are never seen (Proof/HostEnds.lean, Proof/Spec.lean `convPadded_eq_convOut`).

   Both programs therefore end at `convOut` of the same three arrays; the only law used between them is that the product
   of two extended reals commutes, so the inputs' finiteness is never opened. The kernel's idealization rewrote nothing,
   and the three frames are the generated runs. -/
import proofs.«151488_j42159398977944_1_alg».proof.Defs
import proofs.«151488_j42159398977944_1_alg».proof.Proof.Gen.Kernel
import proofs.«151488_j42159398977944_1_alg».proof.Proof.Gen.Kernel.Skeleton
import proofs.«151488_j42159398977944_1_alg».proof.Proof.Gen.Kernel.Launch
import proofs.«151488_j42159398977944_1_alg».proof.Proof.Gen.Kernel.Points
import proofs.«151488_j42159398977944_1_alg».proof.Proof.Gen.Kernel.Frame
import proofs.«151488_j42159398977944_1_alg».proof.Proof.Gen.KernelIdeal
import proofs.«151488_j42159398977944_1_alg».proof.Proof.Gen.KernelIdeal.Skeleton
import proofs.«151488_j42159398977944_1_alg».proof.Proof.Gen.KernelIdeal.Launch
import proofs.«151488_j42159398977944_1_alg».proof.Proof.Gen.KernelIdeal.Points
import proofs.«151488_j42159398977944_1_alg».proof.Proof.Gen.KernelIdeal.Frame
import proofs.«151488_j42159398977944_1_alg».proof.Proof.Gen.ReferenceIdeal
import proofs.«151488_j42159398977944_1_alg».proof.Proof.Gen.Pre_finite_inputs
import proofs.«151488_j42159398977944_1_alg».proof.Proof.Gen.ReferenceIdeal.Run
import proofs.«151488_j42159398977944_1_alg».proof.Proof.Gen.ReferenceIdeal.Read
import proofs.«151488_j42159398977944_1_alg».proof.Proof.KernelValue
import proofs.«151488_j42159398977944_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end at the sliding-window layer of those arguments:
    the kernel by its blocks (`KernelValue.run`), the reference by its operations read at an index (`RefValue.ref_eq`). -/
theorem algebraic : Cert.algebraic_KernelIdeal_ReferenceIdeal := by
  intro m ρ m' ρ' _ hagree
  refine ⟨fun c => Cert.Conv.convOut (Cert.Conv.KernelValue.seqArr m c) (Cert.Conv.KernelValue.wts m c)
    (Cert.Conv.KernelValue.bias m c), Cert.Conv.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Conv.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
